-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x128 : Shape := ⟨4, ![8, 16, 4096, 128]⟩
abbrev S4096 : Shape := ⟨1, ![4096]⟩
abbrev S64x32x2 : Shape := ⟨3, ![64, 32, 2]⟩
abbrev S_ : Shape := ⟨0, ![]⟩

class Facts : Prop where
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  h_S_ : 0 < S_.numel
  bcast_S_S64x32x2 : S_.BroadcastsInDim S64x32x2 (![] : Fin 0 → Fin S64x32x2.rank)
  reducesTo_S64x32x2_S_d0_1_2 : S64x32x2.ReducesTo [0, 1, 2] S_

variable [Facts]

def fn {F : FTy → Type} [FloatOps F] (main_arg0 : FVec F S8x16x4096x128 .f32) (main_arg1 : IVec S4096 32) (main_arg2 : FVec F S64x32x2 .f32) (main_arg3 : FVec F S64x32x2 .f32) : IVec S_ 1 :=
  let main_v0 : FVec F S8x16x4096x128 .f32 := Host.absf main_arg0
  let main_cst : FVec F S_ .f32 := constant S_ .f32 0x7F800000#32
  let main_v1 : FVec F S8x16x4096x128 .f32 := broadcastInDim S8x16x4096x128 ![] bcast_S_S8x16x4096x128 main_cst
  let main_v2 : IVec S8x16x4096x128 1 := cmpf .olt main_v0 main_v1
  let main_c : IVec S_ 1 := constantI S_ 1 1#1
  let main_v3 : IVec S_ 1 := (fun x v => Host.reduce IntOp.andi x v reducesTo_S8x16x4096x128_S_d0_1_2_3 h_S_) main_v2 main_c
  let main_v4 : FVec F S64x32x2 .f32 := Host.absf main_arg2
  let main_cst_0 : FVec F S_ .f32 := constant S_ .f32 0x7F800000#32
  let main_v5 : FVec F S64x32x2 .f32 := broadcastInDim S64x32x2 ![] bcast_S_S64x32x2 main_cst_0
  let main_v6 : IVec S64x32x2 1 := cmpf .olt main_v4 main_v5
  let main_c_1 : IVec S_ 1 := constantI S_ 1 1#1
  let main_v7 : IVec S_ 1 := (fun x v => Host.reduce IntOp.andi x v reducesTo_S64x32x2_S_d0_1_2 h_S_) main_v6 main_c_1
  let main_v8 : IVec S_ 1 := andi main_v3 main_v7
  let main_v9 : FVec F S64x32x2 .f32 := Host.absf main_arg3
  let main_cst_2 : FVec F S_ .f32 := constant S_ .f32 0x7F800000#32
  let main_v10 : FVec F S64x32x2 .f32 := broadcastInDim S64x32x2 ![] bcast_S_S64x32x2 main_cst_2
  let main_v11 : IVec S64x32x2 1 := cmpf .olt main_v9 main_v10
  let main_c_3 : IVec S_ 1 := constantI S_ 1 1#1
  let main_v12 : IVec S_ 1 := (fun x v => Host.reduce IntOp.andi x v reducesTo_S64x32x2_S_d0_1_2 h_S_) main_v11 main_c_3
  let main_v13 : IVec S_ 1 := andi main_v8 main_v12
  main_v13
-- ==== Kernel.lean ====
abbrev S8x16x4096x128 : Shape := ⟨4, ![8, 16, 4096, 128]⟩
abbrev S4096 : Shape := ⟨1, ![4096]⟩
abbrev S64x32x2 : Shape := ⟨3, ![64, 32, 2]⟩
abbrev S_ : Shape := ⟨0, ![]⟩
abbrev S4096x1 : Shape := ⟨2, ![4096, 1]⟩
abbrev S4096x32x2 : Shape := ⟨3, ![4096, 32, 2]⟩
abbrev S4096x32x1 : Shape := ⟨3, ![4096, 32, 1]⟩
abbrev S4096x32 : Shape := ⟨2, ![4096, 32]⟩
abbrev S128x4096x128 : Shape := ⟨3, ![128, 4096, 128]⟩
abbrev S8x1024x128 : Shape := ⟨3, ![8, 1024, 128]⟩
abbrev S1024x32 : Shape := ⟨2, ![1024, 32]⟩
abbrev S1x1024x32 : Shape := ⟨3, ![1, 1024, 32]⟩
abbrev S8x1024x32 : Shape := ⟨3, ![8, 1024, 32]⟩

abbrev nBuf : Space → Nat
  | .hbm => 39
  | .vmem => 12
  | .smem => 0
  | _ => 0

abbrev bufTy : (tb : Table) → Fin (tcTables nBuf tb) → BufTy
  | .hbm, ⟨0, _⟩ => ⟨S8x16x4096x128, .f32⟩
  | .hbm, ⟨1, _⟩ => ⟨S4096, .i32⟩
  | .hbm, ⟨2, _⟩ => ⟨S64x32x2, .f32⟩
  | .hbm, ⟨3, _⟩ => ⟨S64x32x2, .f32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x32x2, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x32x2, .f32⟩
  | .hbm, ⟨28, _⟩ => ⟨S4096x32x1, .f32⟩
  | .hbm, ⟨29, _⟩ => ⟨S4096x32, .f32⟩
  | .hbm, ⟨30, _⟩ => ⟨S4096x32x1, .f32⟩
  | .hbm, ⟨31, _⟩ => ⟨S4096x32, .f32⟩
  | .hbm, ⟨32, _⟩ => ⟨S4096x32x1, .f32⟩
  | .hbm, ⟨33, _⟩ => ⟨S4096x32, .f32⟩
  | .hbm, ⟨34, _⟩ => ⟨S4096x32x1, .f32⟩
  | .hbm, ⟨35, _⟩ => ⟨S4096x32, .f32⟩
  | .hbm, ⟨36, _⟩ => ⟨S128x4096x128, .f32⟩
  | .hbm, ⟨37, _⟩ => ⟨S128x4096x128, .f32⟩
  | .hbm, ⟨38, _⟩ => ⟨S8x16x4096x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S8x1024x128, .f32⟩
  | .local _ .vmem, ⟨11, _⟩ => ⟨S8x1024x128, .f32⟩
  | _, _ => ⟨S8x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S4096x32x2_S4096x32x1_0_0_0 : S4096x32x2.Slices ![0, 0, 0] S4096x32x1
  shapeCasts_S4096x32x1_S4096x32 : S4096x32x1.ShapeCasts S4096x32
  slices_S4096x32x2_S4096x32x1_0_0_1 : S4096x32x2.Slices ![0, 0, 1] S4096x32x1
  shapeCasts_S8x16x4096x128_S128x4096x128 : S8x16x4096x128.ShapeCasts S128x4096x128
  inb_S8x1024x128_S8x1024x128_0_0_0 : ∀ a, (![0, 0, 0] : Fin 3 → Nat) a + S8x1024x128.size a ≤ S8x1024x128.size a
  h_S8x1024x128 : 0 < S8x1024x128.numel
  shapeCasts_S8x1024x128_S8x1024x128 : S8x1024x128.ShapeCasts S8x1024x128
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x32_S1x1024x32 : S1024x32.ShapeCasts S1x1024x32
  slices_S8x1024x128_o0_0_0_S8x1024x32 : S8x1024x128.Slices ![0, 0, 0] S8x1024x32
  slices_S8x1024x128_o0_0_32_S8x1024x32 : S8x1024x128.Slices ![0, 0, 32] S8x1024x32
  slices_S8x1024x128_o0_0_64_S8x1024x32 : S8x1024x128.Slices ![0, 0, 64] S8x1024x32
  slices_S8x1024x128_o0_0_96_S8x1024x32 : S8x1024x128.Slices ![0, 0, 96] S8x1024x32
  broadcasts_S1x1024x32_S8x1024x32 : S1x1024x32.Broadcasts S8x1024x32
  concatenates_S8x1024x32_S8x1024x32_S8x1024x32_S8x1024x32_S8x1024x128_d2 : Shape.Concatenates [S8x1024x32, S8x1024x32, S8x1024x32, S8x1024x32] S8x1024x128 2
  shapeCasts_S128x4096x128_S8x16x4096x128 : S128x4096x128.ShapeCasts S8x16x4096x128
  gather_S64x32x2_S4096x1_S4096x32x2_12_0_n_n_0_1_1322_wf : GatherDims.WF S64x32x2 S4096x1 S4096x32x2 [1, 2] [0] [] [0] [] 1 ![1, 32, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S128x4096x128.size a
  hwx0_0 : ∀ i : grid0.Coords, EltTy.bits .f32 = 32 ∨ (Rect.block (s := S128x4096x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S4096x32.size a
  hwx0_1 : ∀ i : grid0.Coords, EltTy.bits .f32 = 32 ∨ (Rect.block (s := S4096x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S4096x32.size a
  hwx0_4 : ∀ i : grid0.Coords, EltTy.bits .f32 = 32 ∨ (Rect.block (s := S4096x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024x128.size a ≤ S128x4096x128.size a
  hwx0_5 : ∀ i : grid0.Coords, EltTy.bits .f32 = 32 ∨ (Rect.block (s := S128x4096x128) S8x1024x128.size (cc0_transform_5 i) (hinb0_5 i)).WholeWords (EltTy.packing .f32)

variable [Facts₀]

def gather_S64x32x2_S4096x1_S4096x32x2_12_0_n_n_0_1_1322 : GatherDims S64x32x2 S4096x1 S4096x32x2 where
  offsetDims := [1, 2]
  collapsedSliceDims := [0]
  operandBatchingDims := []
  startIndicesBatchingDims := []
  startIndexMap := [0]
  indexVectorDim := 1
  sliceSizes := ![1, 32, 2]
  wf := gather_S64x32x2_S4096x1_S4096x32x2_12_0_n_n_0_1_1322_wf

abbrev win0_0 : Pipeline.Window sig grid0 :=
  Pipeline.Window.ofSpec (Memref.whole main_v26) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S8x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x4096x128 : Shape := ⟨4, ![8, 16, 4096, 128]⟩
abbrev S4096 : Shape := ⟨1, ![4096]⟩
abbrev S64x32x2 : Shape := ⟨3, ![64, 32, 2]⟩
abbrev S_ : Shape := ⟨0, ![]⟩
abbrev S4096x1 : Shape := ⟨2, ![4096, 1]⟩
abbrev S4096x32x2 : Shape := ⟨3, ![4096, 32, 2]⟩
abbrev S4096x32x1 : Shape := ⟨3, ![4096, 32, 1]⟩
abbrev S4096x32 : Shape := ⟨2, ![4096, 32]⟩
abbrev S8x16x4096x32 : Shape := ⟨4, ![8, 16, 4096, 32]⟩
abbrev S1x1x4096x32 : Shape := ⟨4, ![1, 1, 4096, 32]⟩

abbrev nBuf : Space → Nat
  | .hbm => 69
  | .vmem => 0
  | .smem => 0
  | _ => 0

abbrev bufTy : (tb : Table) → Fin (tcTables nBuf tb) → BufTy
  | .hbm, ⟨0, _⟩ => ⟨S8x16x4096x128, .f32⟩
  | .hbm, ⟨1, _⟩ => ⟨S4096, .i32⟩
  | .hbm, ⟨2, _⟩ => ⟨S64x32x2, .f32⟩
  | .hbm, ⟨3, _⟩ => ⟨S64x32x2, .f32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x32x2, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x32x2, .f32⟩
  | .hbm, ⟨28, _⟩ => ⟨S4096x32x1, .f32⟩
  | .hbm, ⟨29, _⟩ => ⟨S4096x32, .f32⟩
  | .hbm, ⟨30, _⟩ => ⟨S4096x32x1, .f32⟩
  | .hbm, ⟨31, _⟩ => ⟨S4096x32, .f32⟩
  | .hbm, ⟨32, _⟩ => ⟨S4096x32x1, .f32⟩
  | .hbm, ⟨33, _⟩ => ⟨S4096x32, .f32⟩
  | .hbm, ⟨34, _⟩ => ⟨S4096x32x1, .f32⟩
  | .hbm, ⟨35, _⟩ => ⟨S4096x32, .f32⟩
  | .hbm, ⟨36, _⟩ => ⟨S8x16x4096x32, .f32⟩
  | .hbm, ⟨37, _⟩ => ⟨S8x16x4096x32, .f32⟩
  | .hbm, ⟨38, _⟩ => ⟨S8x16x4096x32, .f32⟩
  | .hbm, ⟨39, _⟩ => ⟨S8x16x4096x32, .f32⟩
  | .hbm, ⟨40, _⟩ => ⟨S1x1x4096x32, .f32⟩
  | .hbm, ⟨41, _⟩ => ⟨S8x16x4096x32, .f32⟩
  | .hbm, ⟨42, _⟩ => ⟨S8x16x4096x32, .f32⟩
  | .hbm, ⟨43, _⟩ => ⟨S1x1x4096x32, .f32⟩
  | .hbm, ⟨44, _⟩ => ⟨S8x16x4096x32, .f32⟩
  | .hbm, ⟨45, _⟩ => ⟨S8x16x4096x32, .f32⟩
  | .hbm, ⟨46, _⟩ => ⟨S8x16x4096x32, .f32⟩
  | .hbm, ⟨47, _⟩ => ⟨S1x1x4096x32, .f32⟩
  | .hbm, ⟨48, _⟩ => ⟨S8x16x4096x32, .f32⟩
  | .hbm, ⟨49, _⟩ => ⟨S8x16x4096x32, .f32⟩
  | .hbm, ⟨50, _⟩ => ⟨S1x1x4096x32, .f32⟩
  | .hbm, ⟨51, _⟩ => ⟨S8x16x4096x32, .f32⟩
  | .hbm, ⟨52, _⟩ => ⟨S8x16x4096x32, .f32⟩
  | .hbm, ⟨53, _⟩ => ⟨S8x16x4096x32, .f32⟩
  | .hbm, ⟨54, _⟩ => ⟨S1x1x4096x32, .f32⟩
  | .hbm, ⟨55, _⟩ => ⟨S8x16x4096x32, .f32⟩
  | .hbm, ⟨56, _⟩ => ⟨S8x16x4096x32, .f32⟩
  | .hbm, ⟨57, _⟩ => ⟨S1x1x4096x32, .f32⟩
  | .hbm, ⟨58, _⟩ => ⟨S8x16x4096x32, .f32⟩
  | .hbm, ⟨59, _⟩ => ⟨S8x16x4096x32, .f32⟩
  | .hbm, ⟨60, _⟩ => ⟨S8x16x4096x32, .f32⟩
  | .hbm, ⟨61, _⟩ => ⟨S1x1x4096x32, .f32⟩
  | .hbm, ⟨62, _⟩ => ⟨S8x16x4096x32, .f32⟩
  | .hbm, ⟨63, _⟩ => ⟨S8x16x4096x32, .f32⟩
  | .hbm, ⟨64, _⟩ => ⟨S1x1x4096x32, .f32⟩
  | .hbm, ⟨65, _⟩ => ⟨S8x16x4096x32, .f32⟩
  | .hbm, ⟨66, _⟩ => ⟨S8x16x4096x32, .f32⟩
  | .hbm, ⟨67, _⟩ => ⟨S8x16x4096x32, .f32⟩
  | .hbm, ⟨68, _⟩ => ⟨S8x16x4096x128, .f32⟩
  | _, _ => ⟨S8x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S4096x32x2_S4096x32x1_0_0_0 : S4096x32x2.Slices ![0, 0, 0] S4096x32x1
  shapeCasts_S4096x32x1_S4096x32 : S4096x32x1.ShapeCasts S4096x32
  slices_S4096x32x2_S4096x32x1_0_0_1 : S4096x32x2.Slices ![0, 0, 1] S4096x32x1
  slices_S8x16x4096x128_S8x16x4096x32_0_0_0_0 : S8x16x4096x128.Slices ![0, 0, 0, 0] S8x16x4096x32
  slices_S8x16x4096x128_S8x16x4096x32_0_0_0_32 : S8x16x4096x128.Slices ![0, 0, 0, 32] S8x16x4096x32
  slices_S8x16x4096x128_S8x16x4096x32_0_0_0_64 : S8x16x4096x128.Slices ![0, 0, 0, 64] S8x16x4096x32
  slices_S8x16x4096x128_S8x16x4096x32_0_0_0_96 : S8x16x4096x128.Slices ![0, 0, 0, 96] S8x16x4096x32
  bcast_S4096x32_S1x1x4096x32_2_3 : S4096x32.BroadcastsInDim S1x1x4096x32 (![2, 3] : Fin 2 → Fin S1x1x4096x32.rank)
  bcast_S1x1x4096x32_S8x16x4096x32_0_1_2_3 : S1x1x4096x32.BroadcastsInDim S8x16x4096x32 (![0, 1, 2, 3] : Fin 4 → Fin S8x16x4096x32.rank)
  concatenates_S8x16x4096x32_S8x16x4096x32_S8x16x4096x32_S8x16x4096x32_S8x16x4096x128_d3 : Shape.Concatenates [S8x16x4096x32, S8x16x4096x32, S8x16x4096x32, S8x16x4096x32] S8x16x4096x128 3
  gather_S64x32x2_S4096x1_S4096x32x2_12_0_n_n_0_1_1322_wf : GatherDims.WF S64x32x2 S4096x1 S4096x32x2 [1, 2] [0] [] [0] [] 1 ![1, 32, 2]

variable [Facts₀]

def gather_S64x32x2_S4096x1_S4096x32x2_12_0_n_n_0_1_1322 : GatherDims S64x32x2 S4096x1 S4096x32x2 where
  offsetDims := [1, 2]
  collapsedSliceDims := [0]
  operandBatchingDims := []
  startIndicesBatchingDims := []
  startIndexMap := [0]
  indexVectorDim := 1
  sliceSizes := ![1, 32, 2]
  wf := gather_S64x32x2_S4096x1_S4096x32x2_12_0_n_n_0_1_1322_wf

class Facts : Prop extends Facts₀ where

variable [Facts]
-- ==== Proof.Rotation.lean ====
/-
  The rotary position encoding on one row of 128 lanes, lane by lane.

  A row is four quarters of 32 lanes, `a | b | c | d`.  The first pair `(a, b)` is rotated by the row table's
  angle, the second pair `(c, d)` by the column table's: with `rc, rs` the row cosine and sine at sub-lane `r`
  and `cc, cs` the column ones,
      lane  r       ↦  a·rc − b·rs        lane 32 + r  ↦  a·rs + b·rc
      lane 64 + r   ↦  c·cc − d·cs        lane 96 + r  ↦  c·cs + d·cc.
  `rot` is that lane function; `lane k l` is the lane of quarter `k` that lane `l` is paired with, `sub l` its
  sub-lane.  Nothing here depends on how floats are read: the operations are the instance's own.
-/
import Idealize.ShloMosaic.PureOps.Float

noncomputable section

namespace Cert.Rotary

open Idealize.ShloMosaic

variable {F : FTy → Type} [FloatOps F]

/-- The lane of quarter `k` with the same sub-lane as `l`. -/
def lane (k : Fin 4) (l : Fin 128) : Fin 128 := ⟨32 * k.val + l.val % 32, by have := k.isLt; omega⟩

/-- The sub-lane of `l` inside its quarter. -/
def sub (l : Fin 128) : Fin 32 := ⟨l.val % 32, Nat.mod_lt _ (by decide)⟩

theorem lane_val (k : Fin 4) (l : Fin 128) : (lane k l).val = 32 * k.val + l.val % 32 := rfl
theorem sub_val (l : Fin 128) : (sub l).val = l.val % 32 := rfl

/-- Output lane `l` of the rotated row, from the four paired input lanes and the four table entries. -/
def rot (l : Nat) (a b c d rc rs cc cs : F .f32) : F .f32 :=
  if l < 32 then FloatOps.subf (FloatOps.mulf a rc) (FloatOps.mulf b rs)
  else if l < 64 then FloatOps.addf (FloatOps.mulf a rs) (FloatOps.mulf b rc)
  else if l < 96 then FloatOps.subf (FloatOps.mulf c cc) (FloatOps.mulf d cs)
  else FloatOps.addf (FloatOps.mulf c cs) (FloatOps.mulf d cc)

theorem rot_q0 {l : Nat} (h : l < 32) (a b c d rc rs cc cs : F .f32) :
    rot l a b c d rc rs cc cs = FloatOps.subf (FloatOps.mulf a rc) (FloatOps.mulf b rs) := by
  unfold rot; rw [if_pos h]

theorem rot_q1 {l : Nat} (h0 : 32 ≤ l) (h : l < 64) (a b c d rc rs cc cs : F .f32) :
    rot l a b c d rc rs cc cs = FloatOps.addf (FloatOps.mulf a rs) (FloatOps.mulf b rc) := by
  unfold rot; rw [if_neg (by omega), if_pos h]

theorem rot_q2 {l : Nat} (h0 : 64 ≤ l) (h : l < 96) (a b c d rc rs cc cs : F .f32) :
    rot l a b c d rc rs cc cs = FloatOps.subf (FloatOps.mulf c cc) (FloatOps.mulf d cs) := by
  unfold rot; rw [if_neg (by omega), if_neg (by omega), if_pos h]

theorem rot_q3 {l : Nat} (h0 : 96 ≤ l) (a b c d rc rs cc cs : F .f32) :
    rot l a b c d rc rs cc cs = FloatOps.addf (FloatOps.mulf c cs) (FloatOps.mulf d cc) := by
  unfold rot; rw [if_neg (by omega), if_neg (by omega), if_neg (by omega)]

/-- Equal inputs give the equal output lane. -/
theorem rot_congr (l : Nat) {a b c d rc rs cc cs a' b' c' d' rc' rs' cc' cs' : F .f32}
    (ha : a = a') (hb : b = b') (hc : c = c') (hd : d = d') (hrc : rc = rc') (hrs : rs = rs') (hcc : cc = cc') (hcs : cs = cs') :
    rot l a b c d rc rs cc cs = rot l a' b' c' d' rc' rs' cc' cs' := by
  subst ha hb hc hd hrc hrs hcc hcs; rfl

end Cert.Rotary

end
-- ==== Proof.KernelBlock.lean ====
/-
  What the kernel body stores at one index of its output block.

  The body loads an [8, 1024, 128] block `x` and four [1024, 32] table blocks, cuts `x` into its four lane quarters,
  broadcasts each table over the 8 leading rows, forms the four rotated quarters and joins them along the lanes.  Read at
  block index `(p, q, l)` the stored value is `Rotary.rot l` of the four lanes of row `(p, q)` paired with `l` and of the
  tables' entries at `(q, l mod 32)`: the quarter a lane falls in selects the piece of the join, a slice at lane offset
  `o` reads lane `o + r`, and a table broadcast over the leading axis does not see `p`.
-/
import proofs.«404065_j53704271069549_1_alg».proof.Proof.Gen.KernelIdeal.Skeleton
import proofs.«404065_j53704271069549_1_alg».proof.Proof.Rotation
import Idealize.ShloMosaic.Lib.Pipeline.Value
import Idealize.ShloMosaic.Lib.ValueIdx

noncomputable section

namespace Cert.KernelIdeal.Block

open Cert.KernelIdeal Cert.KernelIdeal.Gen Cert.Rotary Idealize.ShloMosaic Idealize.ShloMosaic.ValueIdx

variable {F : FTy → Type} [FloatOps F]

/-- The slice of the (re-cast, same shape) block at lane offset `o`, read at `(p, q, r)`, is the block at lane `o + r` of
    the same row. -/
theorem quarter_apply (o : Nat) (x : S8x1024x128.Idx → F .f32) (h0 : S8x1024x128.ShapeCasts S8x1024x128)
    (h : S8x1024x128.Slices ![0, 0, o] S8x1024x32)
    (p : Fin 8) (q : Fin 1024) (r : Fin 32) (l' : Fin 128) (hl : l'.val = o + r.val) :
    extractStridedSlice S8x1024x32 ![0, 0, o] (shapeCast S8x1024x128 x h0) h (ix3 p q r) = x (ix3 p q l') := by
  rw [shapeCast_self]
  exact extractStridedSlice_apply _ x h (ix3 p q r) (ix3 p q l') (fun a => match a with
    | ⟨0, _⟩ => by show p.val = 0 + p.val; omega
    | ⟨1, _⟩ => by show q.val = 0 + q.val; omega
    | ⟨2, _⟩ => by show l'.val = o + r.val; exact hl)

/-- A table block given a leading unit axis and broadcast over the 8 rows, read at `(p, q, r)`, is the table at `(q, r)`. -/
theorem table_apply (t : S1024x32.Idx → F .f32) (h1 : S1024x32.ShapeCasts S1024x32) (h2 : S1024x32.ShapeCasts S1x1024x32)
    (h3 : S1x1024x32.Broadcasts S8x1024x32) (p : Fin 8) (q : Fin 1024) (r : Fin 32) :
    broadcastTo S8x1024x32 (shapeCast S1x1024x32 (shapeCast S1024x32 t h1) h2) h3 (ix3 p q r) = t (ix2 q r) := by
  rw [shapeCast_self]
  refine (broadcastTo_apply _ h3 (ix3 p q r) (ix3 (0 : Fin 1) q r) (fun a => match a with
    | ⟨0, _⟩ => by show 0 = if (1 : Nat) = 1 then 0 else p.val; rw [if_pos rfl]
    | ⟨1, _⟩ => by show q.val = if (1024 : Nat) = 1 then 0 else q.val; rw [if_neg (by decide)]
    | ⟨2, _⟩ => by show r.val = if (32 : Nat) = 1 then 0 else r.val; rw [if_neg (by decide)])).trans ?_
  exact shapeCast_apply t h2 (ix3 (0 : Fin 1) q r) (ix2 q r)
    (by rw [Shape.rowMajor_val_two, Shape.rowMajor_val_three]; show q.val * 32 + r.val = (0 * 1024 + q.val) * 32 + r.val; omega)

/-- The index of a quarter piece with the coordinates of `(p, q, l)` off the lane axis. -/
theorem off_axis (p : Fin 8) (q : Fin 1024) (l : Fin 128) (r : Fin 32) :
    ∀ b : Fin S8x1024x32.rank, b.cast (rfl : S8x1024x32.rank = S8x1024x128.rank) ≠ (2 : Fin 3) →
      ((ix3 p q r : S8x1024x32.Idx) b).val = ((ix3 p q l : S8x1024x128.Idx) (b.cast rfl)).val := fun b hb =>
  match b, hb with
  | ⟨0, _⟩, _ => rfl
  | ⟨1, _⟩, _ => rfl
  | ⟨2, _⟩, hb => absurd rfl hb

/-- THE STORED VALUE at block index `(p, q, l)`: lane `l` of the rotated row `(p, q)`. -/
theorem pay_apply (x0 : Vec F S8x1024x128 .f32) (t1 t2 t3 t4 : Vec F S1024x32 .f32) (p : Fin 8) (q : Fin 1024) (l : Fin 128) :
    k0_pay1 x0 t1 t2 t3 t4 (ix3 p q l) =
      rot l.val (x0 (ix3 p q (lane 0 l))) (x0 (ix3 p q (lane 1 l))) (x0 (ix3 p q (lane 2 l))) (x0 (ix3 p q (lane 3 l)))
        (t1 (ix2 q (sub l))) (t2 (ix2 q (sub l))) (t3 (ix2 q (sub l))) (t4 (ix2 q (sub l))) := by
  have hl : l.val < 128 := l.isLt
  unfold k0_pay1
  by_cases h0 : l.val < 32
  · rw [rot_q0 h0]
    refine (concatenate_apply_piece _ _ _ (ix3 p q l) 0 (by show (0 : Nat) < 4; decide) S8x1024x32 _ rfl rfl 0 rfl (ix3 p q (sub l))
      (off_axis p q l (sub l)) (by show 0 + l.val % 32 = l.val; omega)).trans ?_
    exact congrArg₂ FloatOps.subf
      (congrArg₂ FloatOps.mulf (quarter_apply 0 x0 _ _ p q (sub l) (lane 0 l) (by show 32 * 0 + l.val % 32 = 0 + l.val % 32; omega))
        (table_apply t1 _ _ _ p q (sub l)))
      (congrArg₂ FloatOps.mulf (quarter_apply 32 x0 _ _ p q (sub l) (lane 1 l) (by show 32 * 1 + l.val % 32 = 32 + l.val % 32; omega))
        (table_apply t2 _ _ _ p q (sub l)))
  by_cases h1 : l.val < 64
  · rw [rot_q1 (by omega) h1]
    refine (concatenate_apply_piece _ _ _ (ix3 p q l) 1 (by show (1 : Nat) < 4; decide) S8x1024x32 _ rfl rfl 32 rfl (ix3 p q (sub l))
      (off_axis p q l (sub l)) (by show 32 + l.val % 32 = l.val; omega)).trans ?_
    exact congrArg₂ FloatOps.addf
      (congrArg₂ FloatOps.mulf (quarter_apply 0 x0 _ _ p q (sub l) (lane 0 l) (by show 32 * 0 + l.val % 32 = 0 + l.val % 32; omega))
        (table_apply t2 _ _ _ p q (sub l)))
      (congrArg₂ FloatOps.mulf (quarter_apply 32 x0 _ _ p q (sub l) (lane 1 l) (by show 32 * 1 + l.val % 32 = 32 + l.val % 32; omega))
        (table_apply t1 _ _ _ p q (sub l)))
  by_cases h2 : l.val < 96
  · rw [rot_q2 (by omega) h2]
    refine (concatenate_apply_piece _ _ _ (ix3 p q l) 2 (by show (2 : Nat) < 4; decide) S8x1024x32 _ rfl rfl 64 rfl (ix3 p q (sub l))
      (off_axis p q l (sub l)) (by show 64 + l.val % 32 = l.val; omega)).trans ?_
    exact congrArg₂ FloatOps.subf
      (congrArg₂ FloatOps.mulf (quarter_apply 64 x0 _ _ p q (sub l) (lane 2 l) (by show 32 * 2 + l.val % 32 = 64 + l.val % 32; omega))
        (table_apply t3 _ _ _ p q (sub l)))
      (congrArg₂ FloatOps.mulf (quarter_apply 96 x0 _ _ p q (sub l) (lane 3 l) (by show 32 * 3 + l.val % 32 = 96 + l.val % 32; omega))
        (table_apply t4 _ _ _ p q (sub l)))
  · rw [rot_q3 (by omega)]
    refine (concatenate_apply_piece _ _ _ (ix3 p q l) 3 (by show (3 : Nat) < 4; decide) S8x1024x32 _ rfl rfl 96 rfl (ix3 p q (sub l))
      (off_axis p q l (sub l)) (by show 96 + l.val % 32 = l.val; omega)).trans ?_
    exact congrArg₂ FloatOps.addf
      (congrArg₂ FloatOps.mulf (quarter_apply 64 x0 _ _ p q (sub l) (lane 2 l) (by show 32 * 2 + l.val % 32 = 64 + l.val % 32; omega))
        (table_apply t4 _ _ _ p q (sub l)))
      (congrArg₂ FloatOps.mulf (quarter_apply 96 x0 _ _ p q (sub l) (lane 3 l) (by show 32 * 3 + l.val % 32 = 96 + l.val % 32; omega))
        (table_apply t3 _ _ _ p q (sub l)))

end Cert.KernelIdeal.Block

end
-- ==== Proof.KernelArray.lean ====
/-
  The kernel's [128, 4096, 128] result array after the run.

  The grid is 16 × 4: point `(i, j)` takes rows `8i … 8i + 7` and positions `1024j … 1024j + 1023` of the input
  array, all 128 lanes, and positions `1024j …` of each of the four tables, and writes back the same block of the
  result.  So what a point writes back is its block of ONE array, `rope`: at `(a, n, l)` lane `l` of the rotated row
  `(a, n)` of the input array with the tables' entries at `(n, l mod 32)`.  The 64 blocks tile the result array, hence
  after the run the result array is `rope` of the arrays the region found.
-/
import proofs.«404065_j53704271069549_1_alg».proof.Proof.Gen.KernelIdeal.Frame
import proofs.«404065_j53704271069549_1_alg».proof.Proof.KernelBlock
import Idealize.ShloMosaic.Lib.Pipeline.Value
import Idealize.ShloMosaic.Lib.ValueIdx

noncomputable section

namespace Cert.KernelIdeal.Array

open Cert.KernelIdeal Cert.KernelIdeal.Gen Cert.KernelIdeal.Block Cert.Rotary
open Idealize.ShloMosaic Idealize.ShloMosaic.TcCoe Idealize.ShloMosaic.ValueIdx Idealize.SL.Sem
open Idealize.ShloMosaic.Pipeline (Dat)

variable {F : FTy → Type} [FloatOps F]

/-! ## The rotated array -/

/-- Lane `l` of the rotated row `(a, n)`. -/
def ropeAt (X : S128x4096x128.Idx → F .f32) (rc rs cc cs : S4096x32.Idx → F .f32) (a : Fin 128) (n : Fin 4096) (l : Fin 128) : F .f32 :=
  rot l.val (X (ix3 a n (lane 0 l))) (X (ix3 a n (lane 1 l))) (X (ix3 a n (lane 2 l))) (X (ix3 a n (lane 3 l)))
    (rc (ix2 n (sub l))) (rs (ix2 n (sub l))) (cc (ix2 n (sub l))) (cs (ix2 n (sub l)))

/-- The rotated array, index by index. -/
def rope (X : S128x4096x128.Idx → F .f32) (rc rs cc cs : S4096x32.Idx → F .f32) : S128x4096x128.Idx → F .f32 := fun i =>
  ropeAt X rc rs cc cs ⟨(i 0).val, (i 0).isLt⟩ ⟨(i 1).val, (i 1).isLt⟩ ⟨(i 2).val, (i 2).isLt⟩

theorem rope_apply (X : S128x4096x128.Idx → F .f32) (rc rs cc cs : S4096x32.Idx → F .f32) (i : S128x4096x128.Idx)
    (a : Fin 128) (n : Fin 4096) (l : Fin 128) (h0 : (i 0).val = a.val) (h1 : (i 1).val = n.val) (h2 : (i 2).val = l.val) :
    rope X rc rs cc cs i = ropeAt X rc rs cc cs a n l := by
  unfold rope
  rw [show (⟨(i 0).val, (i 0).isLt⟩ : Fin 128) = a from Fin.ext h0, show (⟨(i 1).val, (i 1).isLt⟩ : Fin 4096) = n from Fin.ext h1,
    show (⟨(i 2).val, (i 2).isLt⟩ : Fin 128) = l from Fin.ext h2]

variable (m : (ℓ : Loc nD τ sig) → Buf (Elt F) ℓ) (ρ : Dev nD → PrngReg)

/-! ## The arrays the region finds and the blocks a point is given, under literal types -/

abbrev xarr (c : Dev nD) : Vec F S128x4096x128 .f32 := V m c main_v26
abbrev rcarr (c : Dev nD) : Vec F S4096x32 .f32 := V m c main_v19
abbrev rsarr (c : Dev nD) : Vec F S4096x32 .f32 := V m c main_v21
abbrev ccarr (c : Dev nD) : Vec F S4096x32 .f32 := V m c main_v23
abbrev csarr (c : Dev nD) : Vec F S4096x32 .f32 := V m c main_v25

abbrev xblk (c : Dev nD) (t : Fin cfg0.N) : Vec F S8x1024x128 .f32 := iblk m c 0 t
abbrev rcblk (c : Dev nD) (t : Fin cfg0.N) : Vec F S1024x32 .f32 := iblk m c 1 t
abbrev rsblk (c : Dev nD) (t : Fin cfg0.N) : Vec F S1024x32 .f32 := iblk m c 2 t
abbrev ccblk (c : Dev nD) (t : Fin cfg0.N) : Vec F S1024x32 .f32 := iblk m c 3 t
abbrev csblk (c : Dev nD) (t : Fin cfg0.N) : Vec F S1024x32 .f32 := iblk m c 4 t

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 64 points: the input and the result move together over rows and positions, the tables
    follow the position axis, the lane axis is never cut. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = win0_5.index t (1 : Fin 3) ∧ win0_1.index t (1 : Fin 2) = 0
    ∧ win0_2.index t (0 : Fin 2) = win0_5.index t (1 : Fin 3) ∧ win0_2.index t (1 : Fin 2) = 0
    ∧ win0_3.index t (0 : Fin 2) = win0_5.index t (1 : Fin 3) ∧ win0_3.index t (1 : Fin 2) = 0
    ∧ win0_4.index t (0 : Fin 2) = win0_5.index t (1 : Fin 3) ∧ win0_4.index t (1 : Fin 2) = 0
    ∧ win0_5.index t (0 : Fin 3) ≤ 15 ∧ win0_5.index t (1 : Fin 3) ≤ 3 :=
  (by decide +kernel : ∀ t : Fin grid0.N, _)

/-- Every (row block, position block) pair is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## A block's entry is the array's entry under it -/

theorem xblk_apply (c : Dev nD) (t : Fin cfg0.N) (p : Fin 8) (q : Fin 1024) (l : Fin 128) (k : S128x4096x128.Idx)
    (hk0 : (k 0).val = win0_0.index t (0 : Fin 3) * 8 + p.val) (hk1 : (k 1).val = win0_0.index t (1 : Fin 3) * 1024 + q.val)
    (hk2 : (k 2).val = win0_0.index t (2 : Fin 3) * 128 + l.val) :
    xblk m c t (ix3 p q l) = xarr m c k := by
  show xarr m c (((cfg0.win 0).blk t).view.emb (ix3 p q l)) = xarr m c k
  refine congrArg (xarr m c) (funext fun a => Fin.ext ?_)
  match a with
  | ⟨0, _⟩ => show win0_0.index t (0 : Fin 3) * 8 + 1 * p.val = (k 0).val; omega
  | ⟨1, _⟩ => show win0_0.index t (1 : Fin 3) * 1024 + 1 * q.val = (k 1).val; omega
  | ⟨2, _⟩ => show win0_0.index t (2 : Fin 3) * 128 + 1 * l.val = (k 2).val; omega

theorem rcblk_apply (c : Dev nD) (t : Fin cfg0.N) (q : Fin 1024) (r : Fin 32) (k : S4096x32.Idx)
    (hk0 : (k 0).val = win0_1.index t (0 : Fin 2) * 1024 + q.val) (hk1 : (k 1).val = win0_1.index t (1 : Fin 2) * 32 + r.val) :
    rcblk m c t (ix2 q r) = rcarr m c k := by
  show rcarr m c (((cfg0.win 1).blk t).view.emb (ix2 q r)) = rcarr m c k
  refine congrArg (rcarr m c) (funext fun a => Fin.ext ?_)
  match a with
  | ⟨0, _⟩ => show win0_1.index t (0 : Fin 2) * 1024 + 1 * q.val = (k 0).val; omega
  | ⟨1, _⟩ => show win0_1.index t (1 : Fin 2) * 32 + 1 * r.val = (k 1).val; omega

theorem rsblk_apply (c : Dev nD) (t : Fin cfg0.N) (q : Fin 1024) (r : Fin 32) (k : S4096x32.Idx)
    (hk0 : (k 0).val = win0_2.index t (0 : Fin 2) * 1024 + q.val) (hk1 : (k 1).val = win0_2.index t (1 : Fin 2) * 32 + r.val) :
    rsblk m c t (ix2 q r) = rsarr m c k := by
  show rsarr m c (((cfg0.win 2).blk t).view.emb (ix2 q r)) = rsarr m c k
  refine congrArg (rsarr m c) (funext fun a => Fin.ext ?_)
  match a with
  | ⟨0, _⟩ => show win0_2.index t (0 : Fin 2) * 1024 + 1 * q.val = (k 0).val; omega
  | ⟨1, _⟩ => show win0_2.index t (1 : Fin 2) * 32 + 1 * r.val = (k 1).val; omega

theorem ccblk_apply (c : Dev nD) (t : Fin cfg0.N) (q : Fin 1024) (r : Fin 32) (k : S4096x32.Idx)
    (hk0 : (k 0).val = win0_3.index t (0 : Fin 2) * 1024 + q.val) (hk1 : (k 1).val = win0_3.index t (1 : Fin 2) * 32 + r.val) :
    ccblk m c t (ix2 q r) = ccarr m c k := by
  show ccarr m c (((cfg0.win 3).blk t).view.emb (ix2 q r)) = ccarr m c k
  refine congrArg (ccarr m c) (funext fun a => Fin.ext ?_)
  match a with
  | ⟨0, _⟩ => show win0_3.index t (0 : Fin 2) * 1024 + 1 * q.val = (k 0).val; omega
  | ⟨1, _⟩ => show win0_3.index t (1 : Fin 2) * 32 + 1 * r.val = (k 1).val; omega

theorem csblk_apply (c : Dev nD) (t : Fin cfg0.N) (q : Fin 1024) (r : Fin 32) (k : S4096x32.Idx)
    (hk0 : (k 0).val = win0_4.index t (0 : Fin 2) * 1024 + q.val) (hk1 : (k 1).val = win0_4.index t (1 : Fin 2) * 32 + r.val) :
    csblk m c t (ix2 q r) = csarr m c k := by
  show csarr m c (((cfg0.win 4).blk t).view.emb (ix2 q r)) = csarr m c k
  refine congrArg (csarr m c) (funext fun a => Fin.ext ?_)
  match a with
  | ⟨0, _⟩ => show win0_4.index t (0 : Fin 2) * 1024 + 1 * q.val = (k 0).val; omega
  | ⟨1, _⟩ => show win0_4.index t (1 : Fin 2) * 32 + 1 * r.val = (k 1).val; omega

/-! ## What a point writes back -/

/-- WHAT POINT `t` WRITES BACK is block `t` of `rope` of the arrays the region found. -/
theorem flushed_eq (c : Dev nD) (t : Fin cfg0.N) :
    (dats m 0 c).flushed 5 t
      = ((cfg0.win 5).blk t).view.read (Elt F) (rope (xarr m c) (rcarr m c) (rsarr m c) (ccarr m c) (csarr m c)) := by
  show (cfg0.win 5).cut (grid0.coords t) ((dats m 0 c).after 5 t) = _
  rw [after0_5]
  unfold out0_5
  rw [View.canon_unit_zero hz3]
  simp only [View.ld_unit_zero (S := S8x1024x128) hz3, View.ld_unit_zero (S := S1024x32) hz2]
  obtain ⟨e00, e01, e02, e52, e10, e11, e20, e21, e30, e31, e40, e41, b0, b1⟩ := idx_facts t
  funext j
  obtain ⟨p, q, l, rfl⟩ : ∃ (p : Fin 8) (q : Fin 1024) (l : Fin 128), j = ix3 p q l := ⟨j 0, j 1, j 2, eq_ix3 j⟩
  have hp : p.val < 8 := p.isLt
  have hq : q.val < 1024 := q.isLt
  have hl : l.val < 128 := l.isLt
  show k0_pay1 (xblk m c t) (rcblk m c t) (rsblk m c t) (ccblk m c t) (csblk m c t) (ix3 p q l)
    = rope (xarr m c) (rcarr m c) (rsarr m c) (ccarr m c) (csarr m c) (((cfg0.win 5).blk t).view.emb (ix3 p q l))
  refine (pay_apply (xblk m c t) (rcblk m c t) (rsblk m c t) (ccblk m c t) (csblk m c t) p q l).trans ?_
  refine Eq.trans ?_ (rope_apply (xarr m c) (rcarr m c) (rsarr m c) (ccarr m c) (csarr m c) _
    ⟨win0_5.index t (0 : Fin 3) * 8 + p.val, by omega⟩ ⟨win0_5.index t (1 : Fin 3) * 1024 + q.val, by omega⟩ l
    (by show win0_5.index t (0 : Fin 3) * 8 + 1 * p.val = win0_5.index t (0 : Fin 3) * 8 + p.val; omega)
    (by show win0_5.index t (1 : Fin 3) * 1024 + 1 * q.val = win0_5.index t (1 : Fin 3) * 1024 + q.val; omega)
    (by show win0_5.index t (2 : Fin 3) * 128 + 1 * l.val = l.val; omega)).symm
  unfold ropeAt
  refine rot_congr l.val ?_ ?_ ?_ ?_ ?_ ?_ ?_ ?_
  · exact xblk_apply m c t p q (lane 0 l) _ (by show win0_5.index t (0 : Fin 3) * 8 + p.val = _; omega)
      (by show win0_5.index t (1 : Fin 3) * 1024 + q.val = _; omega) (by show (lane 0 l).val = _; omega)
  · exact xblk_apply m c t p q (lane 1 l) _ (by show win0_5.index t (0 : Fin 3) * 8 + p.val = _; omega)
      (by show win0_5.index t (1 : Fin 3) * 1024 + q.val = _; omega) (by show (lane 1 l).val = _; omega)
  · exact xblk_apply m c t p q (lane 2 l) _ (by show win0_5.index t (0 : Fin 3) * 8 + p.val = _; omega)
      (by show win0_5.index t (1 : Fin 3) * 1024 + q.val = _; omega) (by show (lane 2 l).val = _; omega)
  · exact xblk_apply m c t p q (lane 3 l) _ (by show win0_5.index t (0 : Fin 3) * 8 + p.val = _; omega)
      (by show win0_5.index t (1 : Fin 3) * 1024 + q.val = _; omega) (by show (lane 3 l).val = _; omega)
  · exact rcblk_apply m c t q (sub l) _ (by show win0_5.index t (1 : Fin 3) * 1024 + q.val = _; omega)
      (by show (sub l).val = _; omega)
  · exact rsblk_apply m c t q (sub l) _ (by show win0_5.index t (1 : Fin 3) * 1024 + q.val = _; omega)
      (by show (sub l).val = _; omega)
  · exact ccblk_apply m c t q (sub l) _ (by show win0_5.index t (1 : Fin 3) * 1024 + q.val = _; omega)
      (by show (sub l).val = _; omega)
  · exact csblk_apply m c t q (sub l) _ (by show win0_5.index t (1 : Fin 3) * 1024 + q.val = _; omega)
      (by show (sub l).val = _; omega)

/-! ## The blocks tile the result array -/

/-- An index of the result array is in point `t`'s block iff each coordinate is in the block's range on its axis. -/
theorem mem_blk (t : Fin cfg0.N) (i : S128x4096x128.Idx) :
    i ∈ ((cfg0.win 5).blk t).view.set ↔ ∀ a : Fin 3, win0_5.index t a * S8x1024x128.size a ≤ (i a).val
      ∧ (i a).val < win0_5.index t a * S8x1024x128.size a + S8x1024x128.size a := by
  show i ∈ ((View.whole main_v27).slice (win0_5.rect t)).set ↔ _
  rw [View.set_slice_whole, Rect.mem_set_unit]
  exact Iff.rfl

/-- Every index of the result array is in the block of the point at its row block and position block. -/
theorem cover (i : S128x4096x128.Idx) : ∃ t : Fin cfg0.N, (cfg0.win 5).flush t = true ∧ i ∈ ((cfg0.win 5).blk t).view.set := by
  have hi0 : (i 0).val < 128 := (i 0).isLt
  have hi1 : (i 1).val < 4096 := (i 1).isLt
  have hi2 : (i 2).val < 128 := (i 2).isLt
  obtain ⟨t, ht⟩ := idx_onto ⟨(i 0).val / 8, by omega⟩ ⟨(i 1).val / 1024, by omega⟩
  have q0 : win0_5.index t (0 : Fin 3) = (i 0).val / 8 := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- THE RESULT ARRAY after the run is `rope` of the arrays the region found. -/
theorem final (c : Dev nD) :
    (dats m 0 c).arrAt 5 cfg0.N = rope (xarr m c) (rcarr m c) (rsarr m c) (ccarr m c) (csarr m c) :=
  (dats m 0 c).arrAt_eq_of_cover 5 _ (fun t _ => flushed_eq m c t) cover

end Cert.KernelIdeal.Array

end
-- ==== Proof.KernelRun.lean ====
/-
  The kernel program's run, read.

  Before the region the host re-views the [8, 16, 4096, 128] argument as [128, 4096, 128] (row `16 b + h` is `(b, h)`);
  after it, it re-views the region's [128, 4096, 128] result back as [8, 16, 4096, 128].  So the program's result is that
  re-view of `rope` of the re-viewed argument and of the four tables the host computed before the region.  The tables stay
  named by the arrays the region found (`rcarr` … `csarr`): they are a function of the launch memory alone.
-/
import proofs.«404065_j53704271069549_1_alg».proof.Proof.KernelArray
import Idealize.ShloMosaic.Lib.StableHlo.Run

noncomputable section

namespace Cert.KernelIdeal.Run

open Cert.KernelIdeal Cert.KernelIdeal.Gen Cert.KernelIdeal.Array Cert.Rotary
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The array the region is given as its input is the argument re-viewed as [128, 4096, 128]. -/
theorem xarr_eq (c : Dev nD) :
    xarr m c = shapeCast S128x4096x128 (m ((c : Thread nD τ).loc main_arg0)) shapeCasts_S8x16x4096x128_S128x4096x128 := by
  show StableHlo.after hostOps0 (fun b => m (c, b)) (Proc.devRef .tc main_v26) = _
  after_results
  rfl

/-- The program's result: the rotated array re-viewed as [8, 16, 4096, 128]. -/
def result (c : Dev nD) : Buf (Elt F) ((c : Thread nD τ).loc main_v28) :=
  shapeCast S8x16x4096x128 (rope (xarr m c) (rcarr m c) (rsarr m c) (ccarr m c) (csarr m c)) shapeCasts_S128x4096x128_S8x16x4096x128

/-- What the host line after the region leaves in the result buffer. -/
theorem tail_eq (c : Dev nD) :
    Pipeline.afterTail₀ cfgs (dats m) 0 (V0 m) [hostOps1] c main_v28 = result m c := by
  unfold Pipeline.afterTail₀
  show StableHlo.after hostOps1 _ (Proc.devRef .tc main_v28) = _
  after_results
  unfold result
  rw [(Pipeline.withArrays_arr spec0 launch0.win.arr_inj c _ _ 5).trans (final m c)]
  rfl

/-- THE RUN: every weakly fair execution terminates with the result buffer at `result` and the arguments unchanged. -/
theorem run : θ_run defs (onTc (τ := τ) (main (F := F))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.ReferenceAt.lean ====
/-
  The reference's result at one index.

  The reference cuts the [8, 16, 4096, 128] argument into its four lane quarters, broadcasts each of the four [4096, 32]
  tables over the two leading axes, forms the four rotated quarters and joins them along the lanes.  Read at
  `(b, h, n, l)` the result is `Rotary.rot l` of the four lanes of row `(b, h, n)` paired with `l` and of the tables'
  entries at `(n, l mod 32)`.  The tables themselves (two gathers from the cosine / sine arrays at the unpacked row and
  column numbers, then a lane pick) are never opened: they stay the stages `val_main_v19`, `v21`, `v23`, `v25`.
-/
import proofs.«404065_j53704271069549_1_alg».proof.Proof.Gen.ReferenceIdeal.Read
import proofs.«404065_j53704271069549_1_alg».proof.Proof.Rotation
import Idealize.ShloMosaic.Lib.Pipeline.Value
import Idealize.ShloMosaic.Lib.ValueIdx

noncomputable section

namespace Cert.ReferenceIdeal.At

open Cert.ReferenceIdeal Cert.ReferenceIdeal.Gen Cert.ReferenceIdeal.Read Cert.Rotary
open Idealize.ShloMosaic Idealize.ShloMosaic.ValueIdx

variable {F : FTy → Type} [FloatOps F]

/-! ## The four lane quarters of the argument -/

theorem quarter0 (x0 : (⟨S8x16x4096x128, .f32⟩ : BufTy).Contents (Elt F)) (b : Fin 8) (h : Fin 16) (n : Fin 4096) (r : Fin 32)
    (l' : Fin 128) (hl : l'.val = r.val) : val_main_v26 (F := F) x0 (ix4 b h n r) = x0 (ix4 b h n l') :=
  (val_main_v26_apply x0 _).trans (congrArg x0 (funext fun a => match a with
    | ⟨0, _⟩ => rfl | ⟨1, _⟩ => rfl | ⟨2, _⟩ => rfl | ⟨3, _⟩ => Fin.ext hl.symm))

theorem quarter1 (x0 : (⟨S8x16x4096x128, .f32⟩ : BufTy).Contents (Elt F)) (b : Fin 8) (h : Fin 16) (n : Fin 4096) (r : Fin 32)
    (l' : Fin 128) (hl : l'.val = 32 + r.val) : val_main_v27 (F := F) x0 (ix4 b h n r) = x0 (ix4 b h n l') :=
  (val_main_v27_apply x0 _).trans (congrArg x0 (funext fun a => match a with
    | ⟨0, _⟩ => rfl | ⟨1, _⟩ => rfl | ⟨2, _⟩ => rfl | ⟨3, _⟩ => Fin.ext hl.symm))

theorem quarter2 (x0 : (⟨S8x16x4096x128, .f32⟩ : BufTy).Contents (Elt F)) (b : Fin 8) (h : Fin 16) (n : Fin 4096) (r : Fin 32)
    (l' : Fin 128) (hl : l'.val = 64 + r.val) : val_main_v28 (F := F) x0 (ix4 b h n r) = x0 (ix4 b h n l') :=
  (val_main_v28_apply x0 _).trans (congrArg x0 (funext fun a => match a with
    | ⟨0, _⟩ => rfl | ⟨1, _⟩ => rfl | ⟨2, _⟩ => rfl | ⟨3, _⟩ => Fin.ext hl.symm))

theorem quarter3 (x0 : (⟨S8x16x4096x128, .f32⟩ : BufTy).Contents (Elt F)) (b : Fin 8) (h : Fin 16) (n : Fin 4096) (r : Fin 32)
    (l' : Fin 128) (hl : l'.val = 96 + r.val) : val_main_v29 (F := F) x0 (ix4 b h n r) = x0 (ix4 b h n l') :=
  (val_main_v29_apply x0 _).trans (congrArg x0 (funext fun a => match a with
    | ⟨0, _⟩ => rfl | ⟨1, _⟩ => rfl | ⟨2, _⟩ => rfl | ⟨3, _⟩ => Fin.ext hl.symm))

/-! ## The tables broadcast over the two leading axes: read at `(b, h, n, r)` each is its table at `(n, r)` -/

section Tables
variable (x1 : (⟨S4096, .i32⟩ : BufTy).Contents (Elt F)) (x2 x3 : (⟨S64x32x2, .f32⟩ : BufTy).Contents (Elt F))
variable (b : Fin 8) (h : Fin 16) (n : Fin 4096) (r : Fin 32)

theorem rcos_a : val_main_v31 (F := F) x1 x2 (ix4 b h n r) = val_main_v19 (F := F) x1 x2 (ix2 n r) :=
  (val_main_v31_apply x1 x2 _).trans ((val_main_v30_apply x1 x2 _).trans
    (congrArg _ (funext fun a => match a with | ⟨0, _⟩ => rfl | ⟨1, _⟩ => rfl)))
theorem rsin_a : val_main_v34 (F := F) x1 x2 (ix4 b h n r) = val_main_v21 (F := F) x1 x2 (ix2 n r) :=
  (val_main_v34_apply x1 x2 _).trans ((val_main_v33_apply x1 x2 _).trans
    (congrArg _ (funext fun a => match a with | ⟨0, _⟩ => rfl | ⟨1, _⟩ => rfl)))
theorem rsin_b : val_main_v38 (F := F) x1 x2 (ix4 b h n r) = val_main_v21 (F := F) x1 x2 (ix2 n r) :=
  (val_main_v38_apply x1 x2 _).trans ((val_main_v37_apply x1 x2 _).trans
    (congrArg _ (funext fun a => match a with | ⟨0, _⟩ => rfl | ⟨1, _⟩ => rfl)))
theorem rcos_b : val_main_v41 (F := F) x1 x2 (ix4 b h n r) = val_main_v19 (F := F) x1 x2 (ix2 n r) :=
  (val_main_v41_apply x1 x2 _).trans ((val_main_v40_apply x1 x2 _).trans
    (congrArg _ (funext fun a => match a with | ⟨0, _⟩ => rfl | ⟨1, _⟩ => rfl)))
theorem ccos_a : val_main_v45 (F := F) x1 x3 (ix4 b h n r) = val_main_v23 (F := F) x1 x3 (ix2 n r) :=
  (val_main_v45_apply x1 x3 _).trans ((val_main_v44_apply x1 x3 _).trans
    (congrArg _ (funext fun a => match a with | ⟨0, _⟩ => rfl | ⟨1, _⟩ => rfl)))
theorem csin_a : val_main_v48 (F := F) x1 x3 (ix4 b h n r) = val_main_v25 (F := F) x1 x3 (ix2 n r) :=
  (val_main_v48_apply x1 x3 _).trans ((val_main_v47_apply x1 x3 _).trans
    (congrArg _ (funext fun a => match a with | ⟨0, _⟩ => rfl | ⟨1, _⟩ => rfl)))
theorem csin_b : val_main_v52 (F := F) x1 x3 (ix4 b h n r) = val_main_v25 (F := F) x1 x3 (ix2 n r) :=
  (val_main_v52_apply x1 x3 _).trans ((val_main_v51_apply x1 x3 _).trans
    (congrArg _ (funext fun a => match a with | ⟨0, _⟩ => rfl | ⟨1, _⟩ => rfl)))
theorem ccos_b : val_main_v55 (F := F) x1 x3 (ix4 b h n r) = val_main_v23 (F := F) x1 x3 (ix2 n r) :=
  (val_main_v55_apply x1 x3 _).trans ((val_main_v54_apply x1 x3 _).trans
    (congrArg _ (funext fun a => match a with | ⟨0, _⟩ => rfl | ⟨1, _⟩ => rfl)))

end Tables

/-! ## The join -/

/-- The index of a quarter piece with the coordinates of `(b, h, n, l)` off the lane axis. -/
theorem off_axis (b : Fin 8) (h : Fin 16) (n : Fin 4096) (l : Fin 128) (r : Fin 32) :
    ∀ a : Fin S8x16x4096x32.rank, a.cast (rfl : S8x16x4096x32.rank = S8x16x4096x128.rank) ≠ (3 : Fin 4) →
      ((ix4 b h n r : S8x16x4096x32.Idx) a).val = ((ix4 b h n l : S8x16x4096x128.Idx) (a.cast rfl)).val := fun a ha =>
  match a, ha with
  | ⟨0, _⟩, _ => rfl
  | ⟨1, _⟩, _ => rfl
  | ⟨2, _⟩, _ => rfl
  | ⟨3, _⟩, ha => absurd rfl ha

/-- THE REFERENCE'S RESULT at `(b, h, n, l)`: lane `l` of the rotated row `(b, h, n)`. -/
theorem result_apply (x0 : (⟨S8x16x4096x128, .f32⟩ : BufTy).Contents (Elt F)) (x1 : (⟨S4096, .i32⟩ : BufTy).Contents (Elt F))
    (x2 x3 : (⟨S64x32x2, .f32⟩ : BufTy).Contents (Elt F)) (b : Fin 8) (h : Fin 16) (n : Fin 4096) (l : Fin 128) :
    val_main_v58 (F := F) x0 x1 x2 x3 (ix4 b h n l) =
      rot l.val (x0 (ix4 b h n (lane 0 l))) (x0 (ix4 b h n (lane 1 l))) (x0 (ix4 b h n (lane 2 l))) (x0 (ix4 b h n (lane 3 l)))
        (val_main_v19 (F := F) x1 x2 (ix2 n (sub l))) (val_main_v21 (F := F) x1 x2 (ix2 n (sub l)))
        (val_main_v23 (F := F) x1 x3 (ix2 n (sub l))) (val_main_v25 (F := F) x1 x3 (ix2 n (sub l))) := by
  have hl : l.val < 128 := l.isLt
  unfold val_main_v58
  by_cases h0 : l.val < 32
  · rw [rot_q0 h0]
    refine (concatenate_apply_piece _ _ _ (ix4 b h n l) 0 (by show (0 : Nat) < 4; decide) S8x16x4096x32 _ rfl rfl 0 rfl
      (ix4 b h n (sub l)) (off_axis b h n l (sub l)) (by show 0 + l.val % 32 = l.val; omega)).trans ?_
    exact congrArg₂ FloatOps.subf
      (congrArg₂ FloatOps.mulf (quarter0 x0 b h n (sub l) (lane 0 l) (by show 32 * 0 + l.val % 32 = l.val % 32; omega))
        (rcos_a x1 x2 b h n (sub l)))
      (congrArg₂ FloatOps.mulf (quarter1 x0 b h n (sub l) (lane 1 l) (by show 32 * 1 + l.val % 32 = 32 + l.val % 32; omega))
        (rsin_a x1 x2 b h n (sub l)))
  by_cases h1 : l.val < 64
  · rw [rot_q1 (by omega) h1]
    refine (concatenate_apply_piece _ _ _ (ix4 b h n l) 1 (by show (1 : Nat) < 4; decide) S8x16x4096x32 _ rfl rfl 32 rfl
      (ix4 b h n (sub l)) (off_axis b h n l (sub l)) (by show 32 + l.val % 32 = l.val; omega)).trans ?_
    exact congrArg₂ FloatOps.addf
      (congrArg₂ FloatOps.mulf (quarter0 x0 b h n (sub l) (lane 0 l) (by show 32 * 0 + l.val % 32 = l.val % 32; omega))
        (rsin_b x1 x2 b h n (sub l)))
      (congrArg₂ FloatOps.mulf (quarter1 x0 b h n (sub l) (lane 1 l) (by show 32 * 1 + l.val % 32 = 32 + l.val % 32; omega))
        (rcos_b x1 x2 b h n (sub l)))
  by_cases h2 : l.val < 96
  · rw [rot_q2 (by omega) h2]
    refine (concatenate_apply_piece _ _ _ (ix4 b h n l) 2 (by show (2 : Nat) < 4; decide) S8x16x4096x32 _ rfl rfl 64 rfl
      (ix4 b h n (sub l)) (off_axis b h n l (sub l)) (by show 64 + l.val % 32 = l.val; omega)).trans ?_
    exact congrArg₂ FloatOps.subf
      (congrArg₂ FloatOps.mulf (quarter2 x0 b h n (sub l) (lane 2 l) (by show 32 * 2 + l.val % 32 = 64 + l.val % 32; omega))
        (ccos_a x1 x3 b h n (sub l)))
      (congrArg₂ FloatOps.mulf (quarter3 x0 b h n (sub l) (lane 3 l) (by show 32 * 3 + l.val % 32 = 96 + l.val % 32; omega))
        (csin_a x1 x3 b h n (sub l)))
  · rw [rot_q3 (by omega)]
    refine (concatenate_apply_piece _ _ _ (ix4 b h n l) 3 (by show (3 : Nat) < 4; decide) S8x16x4096x32 _ rfl rfl 96 rfl
      (ix4 b h n (sub l)) (off_axis b h n l (sub l)) (by show 96 + l.val % 32 = l.val; omega)).trans ?_
    exact congrArg₂ FloatOps.addf
      (congrArg₂ FloatOps.mulf (quarter2 x0 b h n (sub l) (lane 2 l) (by show 32 * 2 + l.val % 32 = 64 + l.val % 32; omega))
        (csin_b x1 x3 b h n (sub l)))
      (congrArg₂ FloatOps.mulf (quarter3 x0 b h n (sub l) (lane 3 l) (by show 32 * 3 + l.val % 32 = 96 + l.val % 32; omega))
        (ccos_b x1 x3 b h n (sub l)))

end Cert.ReferenceIdeal.At

end
-- ==== Proof.Bridge.lean ====
/-
  The kernel program's result is the reference's result.

  Both are, at `(b, h, n, l)`, lane `l` of the rotated row `(b, h, n)` of the argument with the tables' entries at
  `(n, l mod 32)`:
  * the kernel's result is the [128, 4096, 128] array `rope` re-viewed, and row `16 b + h` of the re-viewed argument is
    row `(b, h)` of the argument (equal row-major positions);
  * the four tables are computed by the same host operations in both programs, from the same index and cosine / sine
    arguments, so the arrays the kernel's region finds are the reference's table stages — an equation between two
    spellings of one term, never opened.
-/
import proofs.«404065_j53704271069549_1_alg».proof.Proof.KernelRun
import proofs.«404065_j53704271069549_1_alg».proof.Proof.ReferenceAt

noncomputable section

namespace Cert.Proof.Bridge

open Idealize.ShloMosaic Idealize.ShloMosaic.TcCoe Idealize.ShloMosaic.ValueIdx Idealize.SL.Sem Idealize.ShloMosaic.StableHlo
open Cert.Rotary Cert.KernelIdeal.Array Cert.KernelIdeal.Run

variable {F : FTy → Type} [FloatOps F]
variable (m : (ℓ : Loc Cert.KernelIdeal.nD Cert.KernelIdeal.τ Cert.KernelIdeal.sig) → Buf (Elt F) ℓ)

/-! ## The tables the region finds are the reference's table stages -/

theorem rcarr_eq (c : Dev Cert.KernelIdeal.nD) :
    rcarr m c = Cert.ReferenceIdeal.Read.val_main_v19 (F := F)
      (m ((c : Thread Cert.KernelIdeal.nD Cert.KernelIdeal.τ).loc Cert.KernelIdeal.main_arg1))
      (m ((c : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v19) = _
  after_results
  rfl

theorem rsarr_eq (c : Dev Cert.KernelIdeal.nD) :
    rsarr m c = Cert.ReferenceIdeal.Read.val_main_v21 (F := F)
      (m ((c : Thread Cert.KernelIdeal.nD Cert.KernelIdeal.τ).loc Cert.KernelIdeal.main_arg1))
      (m ((c : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v21) = _
  after_results
  rfl

set_option maxHeartbeats 2000000 in
theorem ccarr_eq (c : Dev Cert.KernelIdeal.nD) :
    ccarr m c = Cert.ReferenceIdeal.Read.val_main_v23 (F := F)
      (m ((c : Thread Cert.KernelIdeal.nD Cert.KernelIdeal.τ).loc Cert.KernelIdeal.main_arg1))
      (m ((c : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v23) = _
  after_results
  rfl

set_option maxHeartbeats 2000000 in
theorem csarr_eq (c : Dev Cert.KernelIdeal.nD) :
    csarr m c = Cert.ReferenceIdeal.Read.val_main_v25 (F := F)
      (m ((c : Thread Cert.KernelIdeal.nD Cert.KernelIdeal.τ).loc Cert.KernelIdeal.main_arg1))
      (m ((c : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v25) = _
  after_results
  rfl

/-! ## Row `16 b + h` of the re-viewed argument is row `(b, h)` -/

theorem xarr_apply (c : Dev Cert.KernelIdeal.nD) (b : Fin 8) (h : Fin 16) (n : Fin 4096) (l : Fin 128) (a : Fin 128)
    (ha : a.val = 16 * b.val + h.val) :
    xarr m c (ix3 a n l)
      = (m ((c : Thread Cert.KernelIdeal.nD Cert.KernelIdeal.τ).loc Cert.KernelIdeal.main_arg0) :
          Cert.KernelIdeal.S8x16x4096x128.Idx → F .f32) (ix4 b h n l) :=
  (congrFun (xarr_eq m c) (ix3 a n l)).trans
    (shapeCast_apply _ _ (ix3 a n l) (ix4 b h n l)
      (by rw [Shape.rowMajor_val_four, Shape.rowMajor_val_three]
          show ((b.val * 16 + h.val) * 4096 + n.val) * 128 + l.val = (a.val * 4096 + n.val) * 128 + l.val
          rw [ha]; ring))

/-! ## The two results -/

/-- THE KERNEL PROGRAM'S RESULT IS THE REFERENCE'S, as functions of the same arguments. -/
theorem result_eq (c : Dev Cert.KernelIdeal.nD) :
    result m c = Cert.ReferenceIdeal.Read.val_main_v58 (F := F)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) := by
  funext i
  obtain ⟨b, h, n, l, rfl⟩ : ∃ (b : Fin 8) (h : Fin 16) (n : Fin 4096) (l : Fin 128), i = ix4 b h n l :=
    ⟨i 0, i 1, i 2, i 3, eq_ix4 i⟩
  have hb : b.val < 8 := b.isLt
  have hh : h.val < 16 := h.isLt
  refine Eq.trans ?_ (Cert.ReferenceIdeal.At.result_apply _ _ _ _ b h n l).symm
  unfold result
  refine (shapeCast_apply _ _ (ix4 b h n l) (ix3 (⟨16 * b.val + h.val, by omega⟩ : Fin 128) n l)
    (by rw [Shape.rowMajor_val_four, Shape.rowMajor_val_three]
        show ((16 * b.val + h.val) * 4096 + n.val) * 128 + l.val = ((b.val * 16 + h.val) * 4096 + n.val) * 128 + l.val
        ring)).trans ?_
  refine (rope_apply _ _ _ _ _ _ (⟨16 * b.val + h.val, by omega⟩ : Fin 128) n l rfl rfl rfl).trans ?_
  unfold ropeAt
  exact rot_congr l.val (xarr_apply m c b h n _ _ rfl) (xarr_apply m c b h n _ _ rfl) (xarr_apply m c b h n _ _ rfl)
    (xarr_apply m c b h n _ _ rfl) (congrFun (rcarr_eq m c) _) (congrFun (rsarr_eq m c) _) (congrFun (ccarr_eq m c) _)
    (congrFun (csarr_eq m c) _)

end Cert.Proof.Bridge

end
-- ==== Proof.lean ====
/-
  A fused 2-D rotary position encoding, kernel against reference, over the extended reals.

  Input `x : [8, 16, 4096, 128]`, a packed position index per token and two cosine / sine arrays.  Both programs unpack
  the index into a row and a column number, gather per-token tables `rcos, rsin, ccos, csin : [4096, 32]` from the two
  arrays, and rotate each 128-lane row of `x`: with the row cut into quarters `a | b | c | d` of 32 lanes,
      a·rcos − b·rsin | a·rsin + b·rcos | c·ccos − d·csin | c·csin + d·ccos.
  The reference does this on whole arrays.  The kernel re-views `x` as [128, 4096, 128], runs a 16 × 4 grid of
  [8, 1024, 128] blocks, each point rotating its block with its [1024, 32] table blocks, and re-views the result back.

  The two results are ONE function of the arguments, index by index (`Rotary.rot`): no law of arithmetic is used, only
  where each value is read — the lane quarter selects the piece of the join, the re-view keeps row-major positions, the
  64 blocks tile the array — so the precondition is not opened.  The table computation is the same host text in both
  programs and is carried as one term.
  * the frames of the two kernel programs are the generated frame certificates; the reference's frame is its
    generated run with the result dropped;
  * the ideal pass rewrote nothing, so `preserves` is trivial;
  * `algebraic`: the kernel's run ends at `KernelIdeal.Run.result`, the reference's at `val_main_v58` of arguments that
    agree, and `Bridge.result_eq` says these are equal.
-/
import proofs.«404065_j53704271069549_1_alg».proof.Defs
import proofs.«404065_j53704271069549_1_alg».proof.Proof.Gen.Kernel
import proofs.«404065_j53704271069549_1_alg».proof.Proof.Gen.Kernel.Skeleton
import proofs.«404065_j53704271069549_1_alg».proof.Proof.Gen.Kernel.Launch
import proofs.«404065_j53704271069549_1_alg».proof.Proof.Gen.Kernel.Points
import proofs.«404065_j53704271069549_1_alg».proof.Proof.Gen.Kernel.Frame
import proofs.«404065_j53704271069549_1_alg».proof.Proof.Gen.KernelIdeal
import proofs.«404065_j53704271069549_1_alg».proof.Proof.Gen.KernelIdeal.Skeleton
import proofs.«404065_j53704271069549_1_alg».proof.Proof.Gen.KernelIdeal.Launch
import proofs.«404065_j53704271069549_1_alg».proof.Proof.Gen.KernelIdeal.Points
import proofs.«404065_j53704271069549_1_alg».proof.Proof.Gen.KernelIdeal.Frame
import proofs.«404065_j53704271069549_1_alg».proof.Proof.Gen.ReferenceIdeal
import proofs.«404065_j53704271069549_1_alg».proof.Proof.Gen.Pre_finite_inputs
import proofs.«404065_j53704271069549_1_alg».proof.Proof.Gen.ReferenceIdeal.Run
import proofs.«404065_j53704271069549_1_alg».proof.Proof.Gen.ReferenceIdeal.Read
import proofs.«404065_j53704271069549_1_alg».proof.Proof.Bridge
import Idealize.ShloMosaic.Adequacy
import Idealize.ShloMosaic.Init

noncomputable section

namespace Cert.Proof

open Idealize.ShloMosaic Idealize.SL.Sem

/-- At the ideal instance both programs run, and from memories agreeing on the arguments they end with equal results:
    the kernel's run ends at the rotated array re-viewed, the reference's at its composed term, and the two are one
    function of the arguments (`Bridge.result_eq`). -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.Run.result (F := Ideal) m c, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v58_eq m' c).trans ?_
  rw [(hagree c).1, (hagree c).2.1, (hagree c).2.2.1, (hagree c).2.2.2]
  exact (Cert.Proof.Bridge.result_eq (F := Ideal) m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
